-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x40 .f32) (main_arg14 : FVec F S40 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x40 .f32 := Host.absf main_arg13
  let main_cst_22 : FVec F S_ .f32 := constant S_ .f32 0x7F800000#32
  let main_v60 : FVec F S128x40 .f32 := broadcastInDim S128x40 ![] bcast_S_S128x40 main_cst_22
  let main_v61 : IVec S128x40 1 := cmpf .olt main_v59 main_v60
  let main_c_23 : IVec S_ 1 := constantI S_ 1 1#1
  let main_v62 : IVec S_ 1 := (fun x v => Host.reduce IntOp.andi x v reducesTo_S128x40_S_d0_1 h_S_) main_v61 main_c_23
  let main_v63 : IVec S_ 1 := andi main_v58 main_v62
  let main_v64 : FVec F S40 .f32 := Host.absf main_arg14
  let main_cst_24 : FVec F S_ .f32 := constant S_ .f32 0x7F800000#32
  let main_v65 : FVec F S40 .f32 := broadcastInDim S40 ![] bcast_S_S40 main_cst_24
  let main_v66 : IVec S40 1 := cmpf .olt main_v64 main_v65
  let main_c_25 : IVec S_ 1 := constantI S_ 1 1#1
  let main_v67 : IVec S_ 1 := (fun x v => Host.reduce IntOp.andi x v reducesTo_S40_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S256x128 .f32) (main_arg12 : FVec F S128 .f32) (main_arg13 : FVec F S128x40 .f32) (main_arg14 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S256x128 .f32) (main_arg12 : FVec F S128 .f32) (main_arg13 : FVec F S128x40 .f32) (main_arg14 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x256 .f32) (main_arg1 : IVec S2x1600000 32) (main_arg2 : FVec F S100000x128 .f32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S256x128 .f32) (main_arg12 : FVec F S128 .f32) (main_arg13 : FVec F S128x40 .f32) (main_arg14 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x256 : Shape := ⟨2, ![100000, 256]⟩
abbrev S2x1600000 : Shape := ⟨2, ![2, 1600000]⟩
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x40 : Shape := ⟨2, ![100000, 40]⟩
abbrev S2000x256 : Shape := ⟨2, ![2000, 256]⟩
abbrev S2000x128 : Shape := ⟨2, ![2000, 128]⟩
abbrev S2000x40 : Shape := ⟨2, ![2000, 40]⟩
abbrev S1x128 : Shape := ⟨2, ![1, 128]⟩
abbrev S1x40 : Shape := ⟨2, ![1, 40]⟩

abbrev nBuf : Space → Nat
  | .hbm => 45
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x40, .f32⟩
  | .hbm, ⟨14, _⟩ => ⟨S40, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S_, .f32⟩
  | .hbm, ⟨33, _⟩ => ⟨S1600000, .f32⟩
  | .hbm, ⟨34, _⟩ => ⟨S_, .f32⟩
  | .hbm, ⟨35, _⟩ => ⟨S100000, .f32⟩
  | .hbm, ⟨36, _⟩ => ⟨S1600000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x40, .f32⟩
  | .local _ .vmem, ⟨0, _⟩ => ⟨S2000x256, .f32⟩
  | .local _ .vmem, ⟨1, _⟩ => ⟨S2000x256, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S256x128, .f32⟩
  | .local _ .vmem, ⟨13, _⟩ => ⟨S128, .f32⟩
  | .local _ .vmem, ⟨14, _⟩ => ⟨S128x40, .f32⟩
  | .local _ .vmem, ⟨15, _⟩ => ⟨S40, .f32⟩
  | .local _ .vmem, ⟨16, _⟩ => ⟨S2000x40, .f32⟩
  | .local _ .vmem, ⟨17, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x40 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S40 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x40 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  slices_S256x128_o0_0_S128x128 : S256x128.Slices ![0, 0] S128x128
  slices_S256x128_o128_0_S128x128 : S256x128.Slices ![128, 0] S128x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x40.size a ≤ S128x40.size a
  hwx0_12 : ∀ i : grid0.Coords, EltTy.bits .f32 = 32 ∨ (Rect.block (s := S128x40) S128x40.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S40.size a ≤ S40.size a
  hwx0_13 : ∀ i : grid0.Coords, EltTy.bits .f32 = 32 ∨ (Rect.block (s := S40) S40.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x40.size a ≤ S100000x40.size a
  hwx0_14 : ∀ i : grid0.Coords, EltTy.bits .f32 = 32 ∨ (Rect.block (s := S100000x40) S2000x40.size (cc0_transform_14 i) (hinb0_14 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128x40.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S40.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S2000x40.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x40 : Shape := ⟨2, ![100000, 40]⟩
abbrev S1x40 : Shape := ⟨2, ![1, 40]⟩

abbrev nBuf : Space → Nat
  | .hbm => 83
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x40, .f32⟩
  | .hbm, ⟨14, _⟩ => ⟨S40, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S1x1600000, .i32⟩
  | .hbm, ⟨27, _⟩ => ⟨S1600000, .i32⟩
  | .hbm, ⟨28, _⟩ => ⟨S1x1600000, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S100000, .f32⟩
  | .hbm, ⟨47, _⟩ => ⟨S1600000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x256, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x40, .f32⟩
  | .hbm, ⟨80, _⟩ => ⟨S1x40, .f32⟩
  | .hbm, ⟨81, _⟩ => ⟨S100000x40, .f32⟩
  | .hbm, ⟨82, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call1_cst : Ref sig .tc := ⟨.hbm, 59, rfl⟩
abbrev main_call1_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call2_cst : Ref sig .tc := ⟨.hbm, 71, rfl⟩
abbrev main_call2_v0 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call3_cst : Ref sig .tc := ⟨.hbm, 76, rfl⟩
abbrev main_call3_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x40_S100000x40_1_0_0_1_n_n_wf : DotDims.WF S100000x128 S128x40 S100000x40 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Layers.lean ====
/-
  One row of a two-branch network, layer by layer, over the extended reals.

  A dense layer sends a row v to  n ↦ (∑ k, v k · w k n) + b n ;  the rectifier is  x ↦ max x 0  (its zero kept as
  the word both programs print).  The network computes, for one node with feature row xr and aggregated neighbour
  row ar,
      hx = dense (relu ∘ dense xr wx1 bx1) wx2 bx2 ,      ha = dense (relu ∘ dense ar wa1 ba1) wa2 ba2 ,
      h  = relu (relu (mix hx ha) + hx + ha) ,            logits = dense h wc bc ,
  where the mixing layer applies a 256-row weight matrix to the concatenation of hx and ha.  A sum over the 256
  joined coordinates is the sum over the first 128 plus the sum over the last 128 (addition of extended reals is
  commutative and associative, so nothing about finiteness is used); in that split form,
      mix hx ha n = (∑ k, hx k · w (k) n + ∑ k, ha k · w (128 + k) n) + b n ,
  the layer is written here.  The lemmas below read each layer of either program at one entry (p, n) as the row
  formula: a matrix product into a zero accumulator, or the host's dot_general, plus a bias vector repeated along the
  rows; the rectifier; the product with the upper and lower halves of the mixing weights; the product with the
  concatenation.
-/
import Idealize.ShloMosaic.PureOps.Ideal.Laws
import Idealize.ShloMosaic.Lib.ValueIdx
import Idealize.ShloMosaic.Lib.ValueLayout
import Idealize.ShloMosaic.Lib.Pipeline.Value
import proofs.«116607_j86577950753300_1_alg».proof.Proof.LibPlainDot

noncomputable section

namespace Cert.GraphMlp

open Idealize.ShloMosaic Idealize.ShloMosaic.ValueIdx

/-! ## The row formulas -/

/-- The rectifier, its zero the word `0x00000000` read as a float. -/
def relu (x : EReal) : EReal := max x (Ideal.ofBits .f32 0x00000000#32)

/-- A dense layer applied to one row. -/
def dense {K N : Nat} (v : Fin K → EReal) (w : Fin K → Fin N → EReal) (b : Fin N → EReal) (n : Fin N) : EReal :=
  (∑ k : Fin K, v k * w k n) + b n

/-- Row k of the first half of a 256-row matrix. -/
abbrev lo (k : Fin 128) : Fin 256 := ⟨k.val, by omega⟩
/-- Row k of the second half of a 256-row matrix. -/
abbrev hi (k : Fin 128) : Fin 256 := ⟨128 + k.val, by omega⟩

/-- The mixing layer on the concatenation of two 128-rows, the sum over the joined axis split at 128. -/
def mix {N : Nat} (u v : Fin 128 → EReal) (w : Fin 256 → Fin N → EReal) (b : Fin N → EReal) (n : Fin N) : EReal :=
  (∑ k : Fin 128, u k * w (lo k) n + ∑ k : Fin 128, v k * w (hi k) n) + b n

/-- The logits of one node from its feature row and its aggregated neighbour row. -/
def logitsRow (xr : Fin 256 → EReal) (ar : Fin 128 → EReal)
    (wx1 : Fin 256 → Fin 128 → EReal) (bx1 : Fin 128 → EReal) (wx2 : Fin 128 → Fin 128 → EReal) (bx2 : Fin 128 → EReal)
    (wa1 : Fin 128 → Fin 128 → EReal) (ba1 : Fin 128 → EReal) (wa2 : Fin 128 → Fin 128 → EReal) (ba2 : Fin 128 → EReal)
    (ww1 : Fin 256 → Fin 128 → EReal) (bw1 : Fin 128 → EReal) (wc : Fin 128 → Fin 40 → EReal) (bc : Fin 40 → EReal) :
    Fin 40 → EReal :=
  dense (fun n => relu (relu (mix (dense (fun k => relu (dense xr wx1 bx1 k)) wx2 bx2)
      (dense (fun k => relu (dense ar wa1 ba1 k)) wa2 ba2) ww1 bw1 n)
    + dense (fun k => relu (dense xr wx1 bx1 k)) wx2 bx2 n
    + dense (fun k => relu (dense ar wa1 ba1 k)) wa2 ba2 n)) wc bc

/-- A sum over 256 coordinates is the sum over the first 128 plus the sum over the last 128. -/
theorem sum_split (f : Fin 256 → EReal) : ∑ k : Fin 256, f k = ∑ k : Fin 128, f (lo k) + ∑ k : Fin 128, f (hi k) :=
  Fin.sum_univ_add (a := 128) (b := 128) f

/-! ## Arrays as rows -/

/-- Row p of a two-axis array. -/
abbrev row {A B : Nat} (x : (⟨2, ![A, B]⟩ : Shape).Idx → EReal) (p : Fin A) : Fin B → EReal := fun k => x (ix2 p k)
/-- A two-axis array as a function of its two coordinates. -/
abbrev mat {A B : Nat} (w : (⟨2, ![A, B]⟩ : Shape).Idx → EReal) : Fin A → Fin B → EReal := fun a b => w (ix2 a b)
/-- A one-axis array as a function of its coordinate. -/
abbrev vec {A : Nat} (b : (⟨1, ![A]⟩ : Shape).Idx → EReal) : Fin A → EReal := fun a => b (ix1 a)

/-- The whole result: entry (r, j) is logit j of node r, from row r of the features and row r of the aggregated
    neighbour embeddings. -/
def logits (x : (⟨2, ![100000, 256]⟩ : Shape).Idx → EReal) (agg : (⟨2, ![100000, 128]⟩ : Shape).Idx → EReal)
    (wx1 : (⟨2, ![256, 128]⟩ : Shape).Idx → EReal) (bx1 : (⟨1, ![128]⟩ : Shape).Idx → EReal)
    (wx2 : (⟨2, ![128, 128]⟩ : Shape).Idx → EReal) (bx2 : (⟨1, ![128]⟩ : Shape).Idx → EReal)
    (wa1 : (⟨2, ![128, 128]⟩ : Shape).Idx → EReal) (ba1 : (⟨1, ![128]⟩ : Shape).Idx → EReal)
    (wa2 : (⟨2, ![128, 128]⟩ : Shape).Idx → EReal) (ba2 : (⟨1, ![128]⟩ : Shape).Idx → EReal)
    (ww1 : (⟨2, ![256, 128]⟩ : Shape).Idx → EReal) (bw1 : (⟨1, ![128]⟩ : Shape).Idx → EReal)
    (wc : (⟨2, ![128, 40]⟩ : Shape).Idx → EReal) (bc : (⟨1, ![40]⟩ : Shape).Idx → EReal) :
    (⟨2, ![100000, 40]⟩ : Shape).Idx → EReal := fun i =>
  logitsRow (row x (i 0)) (row agg (i 0)) (mat wx1) (vec bx1) (mat wx2) (vec bx2) (mat wa1) (vec ba1) (mat wa2) (vec ba2)
    (mat ww1) (vec bw1) (mat wc) (vec bc) (i 1)

/-- Three arrays added entry by entry. -/
theorem addf_addf_apply {s : Shape} {φ : FTy} (a b c : FVec Ideal s φ) (i : s.Idx) :
    addf (addf a b) c i = a i + b i + c i := rfl

/-! ## A bias vector repeated along the rows, read at an entry -/

variable {M K N : Nat}

/-- The host's form: the vector laid out as one row, then that row repeated. -/
theorem bias_rows_apply {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (n : Fin N) :
    broadcastInDim ⟨2, ![M, N]⟩ ![0, 1] h2 (broadcastInDim ⟨2, ![1, N]⟩ ![1] h1 b) (ix2 p n) = b (ix1 n) := by
  have hn : n.val = if N = 1 then 0 else n.val := by
    by_cases h : N = 1
    · rw [if_pos h]; have := n.isLt; omega
    · rw [if_neg h]
  rw [broadcastInDim_apply ![0, 1] h2 _ (ix2 p n) (ix2 (0 : Fin 1) n) (fun a => by
      match a with
      | ⟨0, _⟩ => rfl
      | ⟨1, _⟩ => exact hn),
    broadcastInDim_apply ![1] h1 b (ix2 (0 : Fin 1) n) (ix1 n) (fun a => by
      match a with
      | ⟨0, _⟩ => exact hn)]

/-- The kernel's form: the vector reshaped to one row, then that row repeated. -/
theorem bias_cast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (n : Fin N) :
    broadcastTo ⟨2, ![M, N]⟩ (shapeCast ⟨2, ![1, N]⟩ b hc) hb (ix2 p n) = b (ix1 n) := by
  rw [broadcastTo_1b_ab_apply, shapeCast_a_1a_apply]

/-! ## The rectifier, in either program's spelling -/

theorem relu_splat_apply {s : Shape} (x : FVec Ideal s .f32) (i : s.Idx) :
    maximumf x (broadcast s (Scalar.ofBits .f32 0x00000000#32)) i = relu (x i) := rfl

theorem relu_host_apply {s : Shape} (x : FVec Ideal s .f32) (h : (⟨0, ![]⟩ : Shape).BroadcastsInDim s ![]) (i : s.Idx) :
    maximumf x (broadcastInDim s ![] h (constant (F := Ideal) ⟨0, ![]⟩ .f32 0x00000000#32)) i = relu (x i) := rfl

/-! ## A dense layer of either program at an entry -/

/-- The kernel's: a matrix product into the zero accumulator plus the bias. -/
theorem matmul_bias_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (n : Fin N) :
    addf (matmul d none l r (constant ⟨2, ![M, N]⟩ .f32 0x00000000#32))
        (broadcastTo ⟨2, ![M, N]⟩ (shapeCast ⟨2, ![1, N]⟩ b hc) hb) (ix2 p n)
      = dense (fun k => l (ix2 p k)) (fun k n => r (ix2 k n)) (fun n => b (ix1 n)) n := by
  show matmul d none l r (constant ⟨2, ![M, N]⟩ .f32 0x00000000#32) (ix2 p n)
      + broadcastTo ⟨2, ![M, N]⟩ (shapeCast ⟨2, ![1, N]⟩ b hc) hb (ix2 p n) = _
  rw [bias_cast_apply]
  exact congrArg (· + b (ix1 n)) (LibPlainDot.matmul_zero_apply d hlc hrc hln hrn hlb hrb none l r p n)

/-- The host's: dot_general plus the bias. -/
theorem dot_bias_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (n : Fin N) :
    addf (Host.dotGeneral d none l r)
        (broadcastInDim ⟨2, ![M, N]⟩ ![0, 1] h2 (broadcastInDim ⟨2, ![1, N]⟩ ![1] h1 b)) (ix2 p n)
      = dense (fun k => l (ix2 p k)) (fun k n => r (ix2 k n)) (fun n => b (ix1 n)) n := by
  show Host.dotGeneral d none l r (ix2 p n)
      + broadcastInDim ⟨2, ![M, N]⟩ ![0, 1] h2 (broadcastInDim ⟨2, ![1, N]⟩ ![1] h1 b) (ix2 p n) = _
  rw [bias_rows_apply]
  exact congrArg (· + b (ix1 n)) (LibPlainDot.dotGeneral_apply d hlc hrc hln hrn hlb hrb none .single l r p n)

/-! ## The mixing layer of either program at an entry -/

/-- The kernel's: the first branch times the upper half of the weights plus the second branch times the lower half,
    each product into a zero accumulator, plus the bias. -/
theorem matmul_halves_bias_apply {φ₁ φ₂ : FTy} (d : DotDims ⟨2, ![M, 128]⟩ ⟨2, ![128, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (u v : FVec Ideal ⟨2, ![M, 128]⟩ φ₁) (w : FVec Ideal ⟨2, ![256, N]⟩ φ₂)
    (s0 : (⟨2, ![256, N]⟩ : Shape).Slices ![0, 0] ⟨2, ![128, N]⟩)
    (s1 : (⟨2, ![256, N]⟩ : Shape).Slices ![128, 0] ⟨2, ![128, N]⟩)
    (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (n : Fin N) :
    addf (addf (matmul d none u (extractStridedSlice ⟨2, ![128, N]⟩ ![0, 0] w s0) (constant ⟨2, ![M, N]⟩ .f32 0x00000000#32))
          (matmul d none v (extractStridedSlice ⟨2, ![128, N]⟩ ![128, 0] w s1) (constant ⟨2, ![M, N]⟩ .f32 0x00000000#32)))
        (broadcastTo ⟨2, ![M, N]⟩ (shapeCast ⟨2, ![1, N]⟩ b hc) hb) (ix2 p n)
      = mix (fun k => u (ix2 p k)) (fun k => v (ix2 p k)) (fun k n => w (ix2 k n)) (fun n => b (ix1 n)) n := by
  show (matmul d none u (extractStridedSlice ⟨2, ![128, N]⟩ ![0, 0] w s0) (constant ⟨2, ![M, N]⟩ .f32 0x00000000#32) (ix2 p n)
      + matmul d none v (extractStridedSlice ⟨2, ![128, N]⟩ ![128, 0] w s1) (constant ⟨2, ![M, N]⟩ .f32 0x00000000#32) (ix2 p n))
      + broadcastTo ⟨2, ![M, N]⟩ (shapeCast ⟨2, ![1, N]⟩ b hc) hb (ix2 p n) = _
  rw [bias_cast_apply]
  refine congrArg (· + b (ix1 n)) (congrArg₂ (· + ·) ?_ ?_)
  · refine (LibPlainDot.matmul_zero_apply d hlc hrc hln hrn hlb hrb none u _ p n).trans
      (Finset.sum_congr rfl fun k _ => ?_)
    rw [slice2_axis0_apply 0 w s0 k n (lo k) (Nat.zero_add _).symm]
  · refine (LibPlainDot.matmul_zero_apply d hlc hrc hln hrn hlb hrb none v _ p n).trans
      (Finset.sum_congr rfl fun k _ => ?_)
    rw [slice2_axis0_apply 128 w s1 k n (hi k) rfl]

/-- The host's: dot_general of the two branches joined along the feature axis, plus the bias. -/
theorem dot_concat_bias_apply {φ₂ : FTy} (d : DotDims ⟨2, ![M, 256]⟩ ⟨2, ![256, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (u v : FVec Ideal ⟨2, ![M, 128]⟩ .f32) (w : FVec Ideal ⟨2, ![256, N]⟩ φ₂)
    (hcat : Shape.Concatenates [(⟨2, ![M, 128]⟩ : Shape), ⟨2, ![M, 128]⟩] ⟨2, ![M, 256]⟩ 1)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (n : Fin N) :
    addf (Host.dotGeneral d none
          (concatenate ⟨2, ![M, 256]⟩ 1 [⟨(⟨2, ![M, 128]⟩ : Shape), u⟩, ⟨(⟨2, ![M, 128]⟩ : Shape), v⟩] hcat) w)
        (broadcastInDim ⟨2, ![M, N]⟩ ![0, 1] h2 (broadcastInDim ⟨2, ![1, N]⟩ ![1] h1 b)) (ix2 p n)
      = mix (fun k => u (ix2 p k)) (fun k => v (ix2 p k)) (fun k n => w (ix2 k n)) (fun n => b (ix1 n)) n := by
  show Host.dotGeneral d none
        (concatenate ⟨2, ![M, 256]⟩ 1 [⟨(⟨2, ![M, 128]⟩ : Shape), u⟩, ⟨(⟨2, ![M, 128]⟩ : Shape), v⟩] hcat) w (ix2 p n)
      + broadcastInDim ⟨2, ![M, N]⟩ ![0, 1] h2 (broadcastInDim ⟨2, ![1, N]⟩ ![1] h1 b) (ix2 p n) = _
  rw [bias_rows_apply]
  refine congrArg (· + b (ix1 n)) ?_
  refine (LibPlainDot.dotGeneral_apply d hlc hrc hln hrn hlb hrb none _ _ w p n).trans ?_
  rw [sum_split (fun k => concatenate ⟨2, ![M, 256]⟩ 1 [⟨(⟨2, ![M, 128]⟩ : Shape), u⟩, ⟨(⟨2, ![M, 128]⟩ : Shape), v⟩] hcat (ix2 p k) * w (ix2 k n))]
  refine congrArg₂ (· + ·) (Finset.sum_congr rfl fun k _ => ?_) (Finset.sum_congr rfl fun k _ => ?_)
  · rw [concatenate_pair_apply_left 1 u v hcat (ix2 p (lo k)) rfl (ix2 p k) (fun a => by
      match a with
      | ⟨0, _⟩ => rfl
      | ⟨1, _⟩ => rfl)]
  · rw [concatenate_pair_apply_right 1 u v hcat (ix2 p (hi k)) rfl rfl (ix2 p k) (fun a ha => by
      match a with
      | ⟨0, _⟩ => rfl
      | ⟨1, _⟩ => exact absurd rfl ha) (by show k.val + 128 = 128 + k.val; omega)]

end Cert.GraphMlp

end
-- ==== Proof.KernelRow.lean ====
/-
  The kernel's arithmetic at one entry of its output block.

  From the blocks it loads — 2000 feature rows x0, the matching 2000 aggregated rows x1, and the weights and biases
  whole — the kernel body stores, at entry (p, j) of the 2000 × 40 output block, logit j of the network applied to row
  p of x0 and row p of x1: every matrix product into a zero accumulator is the plain sum over the contracted
  coordinate, a change of float format is the identity on the extended reals, a bias reshaped to one row and repeated
  is the bias at the column, the rectifier is the maximum with zero, and the mixing weights' upper and lower 128 rows
  multiply the two branches.
-/
import proofs.«116607_j86577950753300_1_alg».proof.Proof.Gen.KernelIdeal.Skeleton
import proofs.«116607_j86577950753300_1_alg».proof.Proof.Layers

noncomputable section

namespace Cert.GraphMlp.KernelSide

open Cert.KernelIdeal Cert.KernelIdeal.Gen Cert.GraphMlp Idealize.ShloMosaic Idealize.ShloMosaic.ValueIdx

/-- The feature branch hx at entry (p, n) of its block. -/
theorem hx_apply (x0 : FVec Ideal S2000x256 .f32) (x2 : FVec Ideal S256x128 .f32) (x3 : FVec Ideal S128 .f32)
    (x4 : FVec Ideal S128x128 .f32) (x5 : FVec Ideal S128 .f32) (p : Fin 2000) (n : Fin 128) :
    k0_pay2 (F := Ideal) x0 x2 x3 x4 x5 (ix2 p n)
      = dense (fun k => relu (dense (row x0 p) (mat x2) (vec x3) k)) (mat x4) (vec x5) n := by
  unfold k0_pay2
  rw [matmul_bias_apply dot_S2000x128_S128x128_S2000x128_1_0_0_1_n_n rfl rfl rfl rfl rfl rfl]
  simp only [truncf_apply, relu_splat_apply,
    matmul_bias_apply dot_S2000x256_S256x128_S2000x128_1_0_0_1_n_n rfl rfl rfl rfl rfl rfl]

/-- The neighbour branch ha at entry (p, n): its last product comes from one part of the body and its bias row
    from another, added in a third. -/
theorem ha_apply (x1 : FVec Ideal S2000x128 .f32) (x6 : FVec Ideal S128x128 .f32) (x7 : FVec Ideal S128 .f32)
    (x8 : FVec Ideal S128x128 .f32) (x9 : FVec Ideal S128 .f32) (p : Fin 2000) (n : Fin 128) :
    addf (k0_pay3 (F := Ideal) x1 x6 x7 x8) (broadcastTo S2000x128 (k0_pay4 (F := Ideal) x9) broadcasts_S1x128_S2000x128) (ix2 p n)
      = dense (fun k => relu (dense (row x1 p) (mat x6) (vec x7) k)) (mat x8) (vec x9) n := by
  unfold k0_pay3 k0_pay4
  rw [matmul_bias_apply dot_S2000x128_S128x128_S2000x128_1_0_0_1_n_n rfl rfl rfl rfl rfl rfl]
  simp only [truncf_apply, relu_splat_apply, shapeCast_self,
    matmul_bias_apply dot_S2000x128_S128x128_S2000x128_1_0_0_1_n_n rfl rfl rfl rfl rfl rfl]

/-- The rest of the body — mixing layer, the two rectifiers with the residual sum between them, the classifier — at
    entry (p, j), over whatever the two branches are. -/
theorem head_apply (v18 v34 : FVec Ideal S2000x128 .f32) (v36 : FVec Ideal S1x128 .f32)
    (x10 : FVec Ideal S256x128 .f32) (x11 : FVec Ideal S128 .f32) (x12 : FVec Ideal S128x40 .f32) (x13 : FVec Ideal S40 .f32)
    (p : Fin 2000) (j : Fin 40) :
    k0_pay1 (F := Ideal) v18 v34 v36 x10 x11 x12 x13 (ix2 p j)
      = dense (fun n => relu (relu (mix (fun k => v18 (ix2 p k))
            (fun k => addf v34 (broadcastTo S2000x128 v36 broadcasts_S1x128_S2000x128) (ix2 p k)) (mat x10) (vec x11) n)
          + v18 (ix2 p n) + addf v34 (broadcastTo S2000x128 v36 broadcasts_S1x128_S2000x128) (ix2 p n)))
        (mat x12) (vec x13) j := by
  unfold k0_pay1
  rw [matmul_bias_apply dot_S2000x128_S128x40_S2000x40_1_0_0_1_n_n rfl rfl rfl rfl rfl rfl]
  simp only [truncf_apply, relu_splat_apply]
  simp only [addf_addf_apply]
  simp only [truncf_apply, relu_splat_apply,
    matmul_halves_bias_apply dot_S2000x128_S128x128_S2000x128_1_0_0_1_n_n rfl rfl rfl rfl rfl rfl]

/-- The body's stored value at entry (p, j) of the output block is logit j of the network on row p of the two
    row-blocks. -/
theorem block_apply (x0 : FVec Ideal S2000x256 .f32) (x1 : FVec Ideal S2000x128 .f32) (x2 : FVec Ideal S256x128 .f32)
    (x3 : FVec Ideal S128 .f32) (x4 : FVec Ideal S128x128 .f32) (x5 : FVec Ideal S128 .f32)
    (x6 : FVec Ideal S128x128 .f32) (x7 : FVec Ideal S128 .f32) (x8 : FVec Ideal S128x128 .f32)
    (x9 : FVec Ideal S128 .f32) (x10 : FVec Ideal S256x128 .f32) (x11 : FVec Ideal S128 .f32)
    (x12 : FVec Ideal S128x40 .f32) (x13 : FVec Ideal S40 .f32) (p : Fin 2000) (j : Fin 40) :
    k0_pay1 (F := Ideal) (k0_pay2 x0 x2 x3 x4 x5) (k0_pay3 x1 x6 x7 x8) (k0_pay4 x9) x10 x11 x12 x13 (ix2 p j)
      = logitsRow (row x0 p) (row x1 p) (mat x2) (vec x3) (mat x4) (vec x5) (mat x6) (vec x7) (mat x8) (vec x9)
          (mat x10) (vec x11) (mat x12) (vec x13) j := by
  rw [head_apply]
  simp only [hx_apply, ha_apply]
  rfl

end Cert.GraphMlp.KernelSide

end
-- ==== Proof.KernelValue.lean ====
/-
  From the blocks the kernel writes to the whole result array.

  The grid has 50 points; point t stages rows 2000·t … 2000·t + 1999 of the features and of the aggregated neighbour
  embeddings, stages every weight matrix and bias vector whole, and writes back rows 2000·t … 2000·t + 1999 of the
  result.  Entry (p, j) of the block it writes is logit j of the network on row p of the two staged row-blocks, which
  are rows 2000·t + p of the two arrays; so what point t writes back is block t of ONE array, the network's logits
  node by node.  The 50 blocks tile the 100000 rows (row r lies in block r / 2000), hence after the run the result
  array is that array.
-/
import proofs.«116607_j86577950753300_1_alg».proof.Proof.Gen.KernelIdeal.Value
import proofs.«116607_j86577950753300_1_alg».proof.Proof.KernelRow
import Idealize.ShloMosaic.Lib.Pipeline.Value

noncomputable section

namespace Cert.GraphMlp.KernelSide

open Cert.KernelIdeal Cert.KernelIdeal.Gen Cert.GraphMlp Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The arrays the region finds and the blocks a point stages, at their literal shapes -/

abbrev arr0 (c : Dev nD) : FVec Ideal S100000x256 .f32 := V m c main_arg0
abbrev arr1 (c : Dev nD) : FVec Ideal S100000x128 .f32 := V m c main_v22
abbrev arr2 (c : Dev nD) : FVec Ideal S256x128 .f32 := V m c main_arg3
abbrev arr3 (c : Dev nD) : FVec Ideal S128 .f32 := V m c main_arg4
abbrev arr4 (c : Dev nD) : FVec Ideal S128x128 .f32 := V m c main_arg5
abbrev arr5 (c : Dev nD) : FVec Ideal S128 .f32 := V m c main_arg6
abbrev arr6 (c : Dev nD) : FVec Ideal S128x128 .f32 := V m c main_arg7
abbrev arr7 (c : Dev nD) : FVec Ideal S128 .f32 := V m c main_arg8
abbrev arr8 (c : Dev nD) : FVec Ideal S128x128 .f32 := V m c main_arg9
abbrev arr9 (c : Dev nD) : FVec Ideal S128 .f32 := V m c main_arg10
abbrev arr10 (c : Dev nD) : FVec Ideal S256x128 .f32 := V m c main_arg11
abbrev arr11 (c : Dev nD) : FVec Ideal S128 .f32 := V m c main_arg12
abbrev arr12 (c : Dev nD) : FVec Ideal S128x40 .f32 := V m c main_arg13
abbrev arr13 (c : Dev nD) : FVec Ideal S40 .f32 := V m c main_arg14

abbrev blk0 (c : Dev nD) (t : Fin cfg0.N) : FVec Ideal S2000x256 .f32 := iblk m c 0 t
abbrev blk1 (c : Dev nD) (t : Fin cfg0.N) : FVec Ideal S2000x128 .f32 := iblk m c 1 t
abbrev blk2 (c : Dev nD) (t : Fin cfg0.N) : FVec Ideal S256x128 .f32 := iblk m c 2 t
abbrev blk3 (c : Dev nD) (t : Fin cfg0.N) : FVec Ideal S128 .f32 := iblk m c 3 t
abbrev blk4 (c : Dev nD) (t : Fin cfg0.N) : FVec Ideal S128x128 .f32 := iblk m c 4 t
abbrev blk5 (c : Dev nD) (t : Fin cfg0.N) : FVec Ideal S128 .f32 := iblk m c 5 t
abbrev blk6 (c : Dev nD) (t : Fin cfg0.N) : FVec Ideal S128x128 .f32 := iblk m c 6 t
abbrev blk7 (c : Dev nD) (t : Fin cfg0.N) : FVec Ideal S128 .f32 := iblk m c 7 t
abbrev blk8 (c : Dev nD) (t : Fin cfg0.N) : FVec Ideal S128x128 .f32 := iblk m c 8 t
abbrev blk9 (c : Dev nD) (t : Fin cfg0.N) : FVec Ideal S128 .f32 := iblk m c 9 t
abbrev blk10 (c : Dev nD) (t : Fin cfg0.N) : FVec Ideal S256x128 .f32 := iblk m c 10 t
abbrev blk11 (c : Dev nD) (t : Fin cfg0.N) : FVec Ideal S128 .f32 := iblk m c 11 t
abbrev blk12 (c : Dev nD) (t : Fin cfg0.N) : FVec Ideal S128x40 .f32 := iblk m c 12 t
abbrev blk13 (c : Dev nD) (t : Fin cfg0.N) : FVec Ideal S40 .f32 := iblk m c 13 t

/-- The network's logits, node by node, on the arrays as the region finds them. -/
abbrev G (c : Dev nD) : FVec Ideal S100000x40 .f32 :=
  logits (arr0 m c) (arr1 m c) (arr2 m c) (arr3 m c) (arr4 m c) (arr5 m c) (arr6 m c) (arr7 m c) (arr8 m c) (arr9 m c)
    (arr10 m c) (arr11 m c) (arr12 m c) (arr13 m c)

/-! ## The index maps over the grid -/

/-- The three row-blocked windows are at block row t, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0 :=
  (by decide +kernel : ∀ t : Fin grid0.N, _)

/-- Every weight and bias window is at block index zero at every point. -/
theorem idx_whole : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0
    ∧ win0_10.index t (0 : Fin 2) = 0 ∧ win0_10.index t (1 : Fin 2) = 0 ∧ win0_11.index t (0 : Fin 1) = 0
    ∧ win0_12.index t (0 : Fin 2) = 0 ∧ win0_12.index t (1 : Fin 2) = 0 ∧ win0_13.index t (0 : Fin 1) = 0 :=
  (by decide +kernel : ∀ t : Fin grid0.N, _)

/-- Row p of block t of an array of 100000 rows cut into blocks of 2000. -/
def rowOf (t : Fin cfg0.N) (p : Fin 2000) : Fin 100000 :=
  ⟨t.val * 2000 + p.val, by have h := t.isLt; have hN : cfg0.N = 50 := N_0; have hp := p.isLt; omega⟩

/-! ## Each staged block read off its array -/

theorem blk0_apply (c : Dev nD) (t : Fin cfg0.N) (p : Fin 2000) (k : Fin 256) :
    blk0 m c t (ix2 p k) = arr0 m c (ix2 (rowOf t p) k) := by
  obtain ⟨e0, e1, -⟩ := idx_rows t
  show V m c main_arg0 (((cfg0.win 0).blk t).view.emb (ix2 p k)) = V m c main_arg0 (ix2 (rowOf t p) k)
  congr 1
  funext a; apply Fin.ext
  match a with
  | ⟨0, _⟩ => show win0_0.index t (0 : Fin 2) * 2000 + 1 * p.val = t.val * 2000 + p.val; omega
  | ⟨1, _⟩ => show win0_0.index t (1 : Fin 2) * 256 + 1 * k.val = k.val; omega

/-- Where entry (p, k) of the second window's block at point t sits in its array. -/
theorem emb_agg (t : Fin cfg0.N) (p : Fin 2000) (k : Fin 128) :
    ((cfg0.win 1).blk t).view.emb (ix2 p k) = ix2 (rowOf t p) k := by
  obtain ⟨-, -, e0, e1, -⟩ := idx_rows t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

/-- The second window's array is the last host operation's result; its contents are never opened: the block is read
    through the window over ANY contents, then the index is moved. -/
theorem blk1_apply (c : Dev nD) (t : Fin cfg0.N) (p : Fin 2000) (k : Fin 128) :
    blk1 m c t (ix2 p k) = arr1 m c (ix2 (rowOf t p) k) := by
  have hread : ∀ X : FVec Ideal S100000x128 .f32,
      ((cfg0.win 1).blk t).view.read (Elt Ideal) X (ix2 p k) = X (((cfg0.win 1).blk t).view.emb (ix2 p k)) := fun _ => rfl
  show ((cfg0.win 1).blk t).view.read (Elt Ideal) (V m c main_v22) (ix2 p k) = V m c main_v22 (ix2 (rowOf t p) k)
  rw [hread, emb_agg]

theorem blk2_eq (c : Dev nD) (t : Fin cfg0.N) : blk2 m c t = arr2 m c := by
  obtain ⟨e0, e1, -⟩ := idx_whole t
  funext y
  obtain ⟨a, k, rfl⟩ : ∃ (a : Fin 256) (k : Fin 128), y = ix2 a k := ⟨y 0, y 1, eq_ix2 y⟩
  show V m c main_arg3 (((cfg0.win 2).blk t).view.emb (ix2 a k)) = V m c main_arg3 (ix2 a k)
  congr 1
  funext ax; apply Fin.ext
  match ax with
  | ⟨0, _⟩ => show win0_2.index t (0 : Fin 2) * 256 + 1 * a.val = a.val; omega
  | ⟨1, _⟩ => show win0_2.index t (1 : Fin 2) * 128 + 1 * k.val = k.val; omega

theorem blk3_eq (c : Dev nD) (t : Fin cfg0.N) : blk3 m c t = arr3 m c := by
  obtain ⟨-, -, e0, -⟩ := idx_whole t
  funext y
  obtain ⟨k, rfl⟩ : ∃ k : Fin 128, y = ix1 k := ⟨y 0, eq_ix1 y⟩
  show V m c main_arg4 (((cfg0.win 3).blk t).view.emb (ix1 k)) = V m c main_arg4 (ix1 k)
  congr 1
  funext ax; apply Fin.ext
  match ax with
  | ⟨0, _⟩ => show win0_3.index t (0 : Fin 1) * 128 + 1 * k.val = k.val; omega

theorem blk4_eq (c : Dev nD) (t : Fin cfg0.N) : blk4 m c t = arr4 m c := by
  obtain ⟨-, -, -, e0, e1, -⟩ := idx_whole t
  funext y
  obtain ⟨a, k, rfl⟩ : ∃ (a : Fin 128) (k : Fin 128), y = ix2 a k := ⟨y 0, y 1, eq_ix2 y⟩
  show V m c main_arg5 (((cfg0.win 4).blk t).view.emb (ix2 a k)) = V m c main_arg5 (ix2 a k)
  congr 1
  funext ax; apply Fin.ext
  match ax with
  | ⟨0, _⟩ => show win0_4.index t (0 : Fin 2) * 128 + 1 * a.val = a.val; omega
  | ⟨1, _⟩ => show win0_4.index t (1 : Fin 2) * 128 + 1 * k.val = k.val; omega

theorem blk5_eq (c : Dev nD) (t : Fin cfg0.N) : blk5 m c t = arr5 m c := by
  obtain ⟨-, -, -, -, -, e0, -⟩ := idx_whole t
  funext y
  obtain ⟨k, rfl⟩ : ∃ k : Fin 128, y = ix1 k := ⟨y 0, eq_ix1 y⟩
  show V m c main_arg6 (((cfg0.win 5).blk t).view.emb (ix1 k)) = V m c main_arg6 (ix1 k)
  congr 1
  funext ax; apply Fin.ext
  match ax with
  | ⟨0, _⟩ => show win0_5.index t (0 : Fin 1) * 128 + 1 * k.val = k.val; omega

theorem blk6_eq (c : Dev nD) (t : Fin cfg0.N) : blk6 m c t = arr6 m c := by
  obtain ⟨-, -, -, -, -, -, e0, e1, -⟩ := idx_whole t
  funext y
  obtain ⟨a, k, rfl⟩ : ∃ (a : Fin 128) (k : Fin 128), y = ix2 a k := ⟨y 0, y 1, eq_ix2 y⟩
  show V m c main_arg7 (((cfg0.win 6).blk t).view.emb (ix2 a k)) = V m c main_arg7 (ix2 a k)
  congr 1
  funext ax; apply Fin.ext
  match ax with
  | ⟨0, _⟩ => show win0_6.index t (0 : Fin 2) * 128 + 1 * a.val = a.val; omega
  | ⟨1, _⟩ => show win0_6.index t (1 : Fin 2) * 128 + 1 * k.val = k.val; omega

theorem blk7_eq (c : Dev nD) (t : Fin cfg0.N) : blk7 m c t = arr7 m c := by
  obtain ⟨-, -, -, -, -, -, -, -, e0, -⟩ := idx_whole t
  funext y
  obtain ⟨k, rfl⟩ : ∃ k : Fin 128, y = ix1 k := ⟨y 0, eq_ix1 y⟩
  show V m c main_arg8 (((cfg0.win 7).blk t).view.emb (ix1 k)) = V m c main_arg8 (ix1 k)
  congr 1
  funext ax; apply Fin.ext
  match ax with
  | ⟨0, _⟩ => show win0_7.index t (0 : Fin 1) * 128 + 1 * k.val = k.val; omega

theorem blk8_eq (c : Dev nD) (t : Fin cfg0.N) : blk8 m c t = arr8 m c := by
  obtain ⟨-, -, -, -, -, -, -, -, -, e0, e1, -⟩ := idx_whole t
  funext y
  obtain ⟨a, k, rfl⟩ : ∃ (a : Fin 128) (k : Fin 128), y = ix2 a k := ⟨y 0, y 1, eq_ix2 y⟩
  show V m c main_arg9 (((cfg0.win 8).blk t).view.emb (ix2 a k)) = V m c main_arg9 (ix2 a k)
  congr 1
  funext ax; apply Fin.ext
  match ax with
  | ⟨0, _⟩ => show win0_8.index t (0 : Fin 2) * 128 + 1 * a.val = a.val; omega
  | ⟨1, _⟩ => show win0_8.index t (1 : Fin 2) * 128 + 1 * k.val = k.val; omega

theorem blk9_eq (c : Dev nD) (t : Fin cfg0.N) : blk9 m c t = arr9 m c := by
  obtain ⟨-, -, -, -, -, -, -, -, -, -, -, e0, -⟩ := idx_whole t
  funext y
  obtain ⟨k, rfl⟩ : ∃ k : Fin 128, y = ix1 k := ⟨y 0, eq_ix1 y⟩
  show V m c main_arg10 (((cfg0.win 9).blk t).view.emb (ix1 k)) = V m c main_arg10 (ix1 k)
  congr 1
  funext ax; apply Fin.ext
  match ax with
  | ⟨0, _⟩ => show win0_9.index t (0 : Fin 1) * 128 + 1 * k.val = k.val; omega

theorem blk10_eq (c : Dev nD) (t : Fin cfg0.N) : blk10 m c t = arr10 m c := by
  obtain ⟨-, -, -, -, -, -, -, -, -, -, -, -, e0, e1, -⟩ := idx_whole t
  funext y
  obtain ⟨a, k, rfl⟩ : ∃ (a : Fin 256) (k : Fin 128), y = ix2 a k := ⟨y 0, y 1, eq_ix2 y⟩
  show V m c main_arg11 (((cfg0.win 10).blk t).view.emb (ix2 a k)) = V m c main_arg11 (ix2 a k)
  congr 1
  funext ax; apply Fin.ext
  match ax with
  | ⟨0, _⟩ => show win0_10.index t (0 : Fin 2) * 256 + 1 * a.val = a.val; omega
  | ⟨1, _⟩ => show win0_10.index t (1 : Fin 2) * 128 + 1 * k.val = k.val; omega

theorem blk11_eq (c : Dev nD) (t : Fin cfg0.N) : blk11 m c t = arr11 m c := by
  obtain ⟨-, -, -, -, -, -, -, -, -, -, -, -, -, -, e0, -⟩ := idx_whole t
  funext y
  obtain ⟨k, rfl⟩ : ∃ k : Fin 128, y = ix1 k := ⟨y 0, eq_ix1 y⟩
  show V m c main_arg12 (((cfg0.win 11).blk t).view.emb (ix1 k)) = V m c main_arg12 (ix1 k)
  congr 1
  funext ax; apply Fin.ext
  match ax with
  | ⟨0, _⟩ => show win0_11.index t (0 : Fin 1) * 128 + 1 * k.val = k.val; omega

theorem blk12_eq (c : Dev nD) (t : Fin cfg0.N) : blk12 m c t = arr12 m c := by
  obtain ⟨-, -, -, -, -, -, -, -, -, -, -, -, -, -, -, e0, e1, -⟩ := idx_whole t
  funext y
  obtain ⟨a, k, rfl⟩ : ∃ (a : Fin 128) (k : Fin 40), y = ix2 a k := ⟨y 0, y 1, eq_ix2 y⟩
  show V m c main_arg13 (((cfg0.win 12).blk t).view.emb (ix2 a k)) = V m c main_arg13 (ix2 a k)
  congr 1
  funext ax; apply Fin.ext
  match ax with
  | ⟨0, _⟩ => show win0_12.index t (0 : Fin 2) * 128 + 1 * a.val = a.val; omega
  | ⟨1, _⟩ => show win0_12.index t (1 : Fin 2) * 40 + 1 * k.val = k.val; omega

theorem blk13_eq (c : Dev nD) (t : Fin cfg0.N) : blk13 m c t = arr13 m c := by
  obtain ⟨-, -, -, -, -, -, -, -, -, -, -, -, -, -, -, -, -, e0⟩ := idx_whole t
  funext y
  obtain ⟨k, rfl⟩ : ∃ k : Fin 40, y = ix1 k := ⟨y 0, eq_ix1 y⟩
  show V m c main_arg14 (((cfg0.win 13).blk t).view.emb (ix1 k)) = V m c main_arg14 (ix1 k)
  congr 1
  funext ax; apply Fin.ext
  match ax with
  | ⟨0, _⟩ => show win0_13.index t (0 : Fin 1) * 40 + 1 * k.val = k.val; omega

/-- Where entry (p, j) of the output block of point t sits in the result array. -/
theorem emb_out (t : Fin cfg0.N) (p : Fin 2000) (j : Fin 40) :
    ((cfg0.win 14).blk t).view.emb (ix2 p j) = ix2 (rowOf t p) j := by
  obtain ⟨-, -, -, -, e0, e1⟩ := idx_rows t
  funext a; apply Fin.ext
  match a with
  | ⟨0, _⟩ => show win0_14.index t (0 : Fin 2) * 2000 + 1 * p.val = t.val * 2000 + p.val; omega
  | ⟨1, _⟩ => show win0_14.index t (1 : Fin 2) * 40 + 1 * j.val = j.val; omega

/-! ## What a point writes back, the cover, the run -/

/-- What point t writes back is block t of the logits array. -/
theorem flushed_eq (c : Dev nD) (t : Fin cfg0.N) :
    (dats m 0 c).flushed 14 t = ((cfg0.win 14).blk t).view.read (Elt Ideal) (G m c) := by
  rw [Cert.KernelIdeal.Value.flushed14]
  unfold out0_14
  rw [View.canon_unit_zero hz2]
  simp only [View.ld_unit_zero (S := S2000x256) hz2, View.ld_unit_zero (S := S2000x128) hz2,
    View.ld_unit_zero (S := S256x128) hz2, View.ld_unit_zero (S := S128x128) hz2, View.ld_unit_zero (S := S128x40) hz2,
    View.ld_unit_zero (S := S128) hz1, View.ld_unit_zero (S := S40) hz1]
  funext y
  obtain ⟨p, j, rfl⟩ : ∃ (p : Fin 2000) (j : Fin 40), y = ix2 p j := ⟨y 0, y 1, eq_ix2 y⟩
  have hcut : ∀ X : FVec Ideal S2000x40 .f32, (cfg0.win 14).cut (grid0.coords t) X (ix2 p j) = X (ix2 p j) := fun _ => rfl
  have hread : ∀ X : FVec Ideal S100000x40 .f32,
      ((cfg0.win 14).blk t).view.read (Elt Ideal) X (ix2 p j) = X (((cfg0.win 14).blk t).view.emb (ix2 p j)) := fun _ => rfl
  rw [hcut, hread, emb_out, block_apply]
  have h0 : row (blk0 m c t) p = row (arr0 m c) (rowOf t p) := funext fun k => blk0_apply m c t p k
  have h1 : row (blk1 m c t) p = row (arr1 m c) (rowOf t p) := funext fun k => blk1_apply m c t p k
  have e2 : (iblk m c 2 t : FVec Ideal S256x128 .f32) = arr2 m c := blk2_eq m c t
  have e3 : (iblk m c 3 t : FVec Ideal S128 .f32) = arr3 m c := blk3_eq m c t
  have e4 : (iblk m c 4 t : FVec Ideal S128x128 .f32) = arr4 m c := blk4_eq m c t
  have e5 : (iblk m c 5 t : FVec Ideal S128 .f32) = arr5 m c := blk5_eq m c t
  have e6 : (iblk m c 6 t : FVec Ideal S128x128 .f32) = arr6 m c := blk6_eq m c t
  have e7 : (iblk m c 7 t : FVec Ideal S128 .f32) = arr7 m c := blk7_eq m c t
  have e8 : (iblk m c 8 t : FVec Ideal S128x128 .f32) = arr8 m c := blk8_eq m c t
  have e9 : (iblk m c 9 t : FVec Ideal S128 .f32) = arr9 m c := blk9_eq m c t
  have e10 : (iblk m c 10 t : FVec Ideal S256x128 .f32) = arr10 m c := blk10_eq m c t
  have e11 : (iblk m c 11 t : FVec Ideal S128 .f32) = arr11 m c := blk11_eq m c t
  have e12 : (iblk m c 12 t : FVec Ideal S128x40 .f32) = arr12 m c := blk12_eq m c t
  have e13 : (iblk m c 13 t : FVec Ideal S40 .f32) = arr13 m c := blk13_eq m c t
  rw [h0, h1, e2, e3, e4, e5, e6, e7, e8, e9, e10, e11, e12, e13]
  rfl

/-- An index of the result array is in point t's block iff each coordinate is in the block's range on its axis. -/
theorem mem_blk (t : Fin cfg0.N) (i : S100000x40.Idx) :
    i ∈ ((cfg0.win 14).blk t).view.set ↔ ∀ a : Fin 2, win0_14.index t a * S2000x40.size a ≤ (i a).val
      ∧ (i a).val < win0_14.index t a * S2000x40.size a + S2000x40.size a := by
  show i ∈ ((View.whole main_v23).slice (win0_14.rect t)).set ↔ _
  rw [View.set_slice_whole, Rect.mem_set_unit]
  exact Iff.rfl

/-- Every entry of the result array is in the block of the point its row falls to. -/
theorem covered (i : S100000x40.Idx) :
    ∃ t : Fin cfg0.N, (cfg0.win 14).flush t = true ∧ i ∈ ((cfg0.win 14).blk t).view.set := by
  have hi0 : (i 0).val < 100000 := (i 0).isLt
  have hi1 : (i 1).val < 40 := (i 1).isLt
  have hN : cfg0.N = 50 := N_0
  obtain ⟨t, ht⟩ : ∃ t : Fin cfg0.N, t.val = (i 0).val / 2000 := ⟨⟨(i 0).val / 2000, by omega⟩, rfl⟩
  obtain ⟨-, -, -, -, e0, e1⟩ := idx_rows t
  refine ⟨t, flush0_14 t, ?_⟩
  rw [mem_blk]
  intro a
  match a with
  | ⟨0, _⟩ =>
    show win0_14.index t (0 : Fin 2) * 2000 ≤ (i 0).val ∧ (i 0).val < win0_14.index t (0 : Fin 2) * 2000 + 2000
    omega
  | ⟨1, _⟩ =>
    show win0_14.index t (1 : Fin 2) * 40 ≤ (i 1).val ∧ (i 1).val < win0_14.index t (1 : Fin 2) * 40 + 40
    omega

/-- After the run the result array is the logits array. -/
theorem final (c : Dev nD) : (dats m 0 c).arrAt 14 cfg0.N = G m c :=
  (dats m 0 c).arrAt_eq_of_cover 14 (G m c) (fun t _ => flushed_eq m c t) covered

end Cert.GraphMlp.KernelSide

end
-- ==== Proof.Aggregate.lean ====
/-
  The aggregated neighbour embeddings are one array in both programs.

  Before it launches its kernel the first program gathers embedding rows along the edges' source nodes, scatter-adds
  them at the edges' destination nodes, counts the edges arriving at each node the same way, clamps the count below
  by one and divides.  The reference applies exactly these operations, in this order, to the same edge list and the
  same table.  So the array the kernel finds in its second window is the reference's aggregated array of the same
  two arguments: the two terms are the same operations applied to the same operands, and nothing in them is opened.
-/
import proofs.«116607_j86577950753300_1_alg».proof.Proof.Gen.KernelIdeal.Frame
import proofs.«116607_j86577950753300_1_alg».proof.Proof.Gen.ReferenceIdeal.Read
import Idealize.ShloMosaic.Lib.StableHlo.Run

noncomputable section

namespace Cert.GraphMlp.KernelSide

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- What the kernel's second window stages from is the reference's aggregation of the edge list and the table. -/
theorem aggregated_eq (c : Dev nD) :
    (V m c main_v22 : S100000x128.Idx → EReal)
      = Cert.ReferenceIdeal.Read.val_main_v31 (F := Ideal) (m ((c : Thread nD τ).loc main_arg1))
          (m ((c : Thread nD τ).loc main_arg2)) := by
  dsimp only [V, hostOps0]
  after_results_simp
  unfold Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_cst_3 Cert.ReferenceIdeal.Read.val_main_v26 Cert.ReferenceIdeal.Read.val_main_v25 Cert.ReferenceIdeal.Read.val_main_v24 Cert.ReferenceIdeal.Read.val_main_cst_2 Cert.ReferenceIdeal.Read.val_main_v23 Cert.ReferenceIdeal.Read.val_main_cst_1 Cert.ReferenceIdeal.Read.val_main_v22 Cert.ReferenceIdeal.Read.val_main_v21 Cert.ReferenceIdeal.Read.val_main_v20 Cert.ReferenceIdeal.Read.val_main_cst Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_c_0 Cert.ReferenceIdeal.Read.val_main_v14 Cert.ReferenceIdeal.Read.val_main_v13 Cert.ReferenceIdeal.Read.val_main_c Cert.ReferenceIdeal.Read.val_main_v12 Cert.ReferenceIdeal.Read.val_main_v11 Cert.ReferenceIdeal.Read.val_main_v10 Cert.ReferenceIdeal.Read.val_main_v9
  rfl

end Cert.GraphMlp.KernelSide

end
-- ==== Proof.KernelResult.lean ====
/-
  The kernel program's result as a function of its arguments.

  The region finds every argument array as launched (no host operation writes an argument), and finds in its second
  window the aggregated neighbour embeddings, which are the reference's aggregation of the edge list and the
  embedding table.  So after the run the result array holds the network's logits, node by node, of the launched
  features, that aggregation, and the launched weights and biases.
-/
import proofs.«116607_j86577950753300_1_alg».proof.Proof.KernelValue
import proofs.«116607_j86577950753300_1_alg».proof.Proof.Aggregate

noncomputable section

namespace Cert.GraphMlp.KernelSide

open Cert.KernelIdeal Cert.KernelIdeal.Gen Cert.GraphMlp Idealize.ShloMosaic Idealize.ShloMosaic.TcCoe Idealize.SL.Sem

variable (m : (ℓ : Loc nD τ sig) → Buf (Elt Ideal) ℓ)

/-- The network's logits on the launched arguments. -/
abbrev result (c : Dev nD) : FVec Ideal S100000x40 .f32 :=
  logits (m ((c : Thread nD τ).loc main_arg0))
    (Cert.ReferenceIdeal.Read.val_main_v31 (F := Ideal) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))

/-- The logits of the arrays as the region finds them are the logits of the launched arguments. -/
theorem G_eq (c : Dev nD) : G m c = result m c := by
  show logits (V m c main_arg0) (V m c main_v22) (V m c main_arg3) (V m c main_arg4) (V m c main_arg5) (V m c main_arg6)
      (V m c main_arg7) (V m c main_arg8) (V m c main_arg9) (V m c main_arg10) (V m c main_arg11) (V m c main_arg12)
      (V m c main_arg13) (V m c main_arg14) = _
  rw [V_main_arg0 m c, aggregated_eq m c, V_main_arg3 m c, V_main_arg4 m c, V_main_arg5 m c, V_main_arg6 m c,
    V_main_arg7 m c, V_main_arg8 m c, V_main_arg9 m c, V_main_arg10 m c, V_main_arg11 m c, V_main_arg12 m c,
    V_main_arg13 m c, V_main_arg14 m c]

/-- After the run the result array holds the logits of the launched arguments. -/
theorem final_result (c : Dev nD) : (dats m 0 c).arrAt 14 cfg0.N = result m c :=
  (final m c).trans (G_eq m c)

end Cert.GraphMlp.KernelSide

end
-- ==== Proof.RefRow.lean ====
/-
  The reference's arithmetic at one entry of its result.

  The reference computes the same network on whole arrays: each dot_general is the plain sum over the contracted
  coordinate, a bias laid out as one row and repeated is the bias at the column, the rectifier is the maximum with
  zero, and the product of the two branches joined along the feature axis with the 256-row mixing weights splits at
  coordinate 128 into the first branch times the upper rows plus the second branch times the lower rows.  Entry
  (r, j) of the result is therefore logit j of the network on row r of the features and row r of the aggregated
  neighbour embeddings; the aggregation itself (gather along edges, scatter-add, division by the clamped degree) is
  carried along as one array and never opened.
-/
import proofs.«116607_j86577950753300_1_alg».proof.Proof.Gen.ReferenceIdeal.Read
import proofs.«116607_j86577950753300_1_alg».proof.Proof.Layers

noncomputable section

namespace Cert.GraphMlp.RefSide

open Cert.ReferenceIdeal Cert.ReferenceIdeal.Read Cert.GraphMlp Idealize.ShloMosaic Idealize.ShloMosaic.ValueIdx

variable (x0 : FVec Ideal S100000x256 .f32) (x1 : (⟨S2x1600000, .i32⟩ : BufTy).Contents (Elt Ideal)) (x2 : FVec Ideal S100000x128 .f32)
  (x3 : FVec Ideal S256x128 .f32) (x4 : FVec Ideal S128 .f32) (x5 : FVec Ideal S128x128 .f32) (x6 : FVec Ideal S128 .f32)
  (x7 : FVec Ideal S128x128 .f32) (x8 : FVec Ideal S128 .f32) (x9 : FVec Ideal S128x128 .f32) (x10 : FVec Ideal S128 .f32)
  (x11 : FVec Ideal S256x128 .f32) (x12 : FVec Ideal S128 .f32) (x13 : FVec Ideal S128x40 .f32) (x14 : FVec Ideal S40 .f32)

/-- The aggregated neighbour embeddings, as the reference's operations compute them from the edge list and the
    embedding table. -/
abbrev agg : FVec Ideal S100000x128 .f32 := val_main_v31 (F := Ideal) x1 x2

/-- First layer of the feature branch, rectified. -/
theorem v4_apply (r : Fin 100000) (k : Fin 128) :
    val_main_v4 (F := Ideal) x0 x3 x4 (ix2 r k) = relu (dense (row x0 r) (mat x3) (vec x4) k) := by
  unfold val_main_v4 val_main_call0_v0 val_main_call0_cst val_main_v3 val_main_v2 val_main_v1 val_main_v0
  rw [relu_host_apply, dot_bias_apply dot_S100000x256_S256x128_S100000x128_1_0_0_1_n_n rfl rfl rfl rfl rfl rfl]

/-- The feature branch hx. -/
theorem v8_apply (r : Fin 100000) (n : Fin 128) :
    val_main_v8 (F := Ideal) x0 x3 x4 x5 x6 (ix2 r n)
      = dense (fun k => relu (dense (row x0 r) (mat x3) (vec x4) k)) (mat x5) (vec x6) n := by
  unfold val_main_v8 val_main_v7 val_main_v6 val_main_v5
  rw [dot_bias_apply dot_S100000x128_S128x128_S100000x128_1_0_0_1_n_n rfl rfl rfl rfl rfl rfl]
  simp only [v4_apply]

/-- First layer of the neighbour branch, rectified. -/
theorem v36_apply (r : Fin 100000) (k : Fin 128) :
    val_main_v36 (F := Ideal) x1 x2 x7 x8 (ix2 r k) = relu (dense (row (agg x1 x2) r) (mat x7) (vec x8) k) := by
  unfold val_main_v36 val_main_call1_v0 val_main_call1_cst val_main_v35 val_main_v34 val_main_v33 val_main_v32
  rw [relu_host_apply, dot_bias_apply dot_S100000x128_S128x128_S100000x128_1_0_0_1_n_n rfl rfl rfl rfl rfl rfl]

/-- The neighbour branch ha. -/
theorem v40_apply (r : Fin 100000) (n : Fin 128) :
    val_main_v40 (F := Ideal) x1 x2 x7 x8 x9 x10 (ix2 r n)
      = dense (fun k => relu (dense (row (agg x1 x2) r) (mat x7) (vec x8) k)) (mat x9) (vec x10) n := by
  unfold val_main_v40 val_main_v39 val_main_v38 val_main_v37
  rw [dot_bias_apply dot_S100000x128_S128x128_S100000x128_1_0_0_1_n_n rfl rfl rfl rfl rfl rfl]
  simp only [v36_apply]

/-- The mixing layer on the joined branches, rectified. -/
theorem v46_apply (r : Fin 100000) (n : Fin 128) :
    val_main_v46 (F := Ideal) x0 x1 x2 x3 x4 x5 x6 x7 x8 x9 x10 x11 x12 (ix2 r n)
      = relu (mix (fun k => val_main_v8 (F := Ideal) x0 x3 x4 x5 x6 (ix2 r k))
          (fun k => val_main_v40 (F := Ideal) x1 x2 x7 x8 x9 x10 (ix2 r k)) (mat x11) (vec x12) n) := by
  unfold val_main_v46 val_main_call2_v0 val_main_call2_cst val_main_v45 val_main_v44 val_main_v43 val_main_v42 val_main_v41
  rw [relu_host_apply, dot_concat_bias_apply dot_S100000x256_S256x128_S100000x128_1_0_0_1_n_n rfl rfl rfl rfl rfl rfl]

/-- The residual sum, rectified. -/
theorem v49_apply (r : Fin 100000) (n : Fin 128) :
    val_main_v49 (F := Ideal) x0 x1 x2 x3 x4 x5 x6 x7 x8 x9 x10 x11 x12 (ix2 r n)
      = relu (val_main_v46 (F := Ideal) x0 x1 x2 x3 x4 x5 x6 x7 x8 x9 x10 x11 x12 (ix2 r n)
          + val_main_v8 (F := Ideal) x0 x3 x4 x5 x6 (ix2 r n) + val_main_v40 (F := Ideal) x1 x2 x7 x8 x9 x10 (ix2 r n)) := by
  unfold val_main_v49 val_main_call3_v0 val_main_call3_cst val_main_v48 val_main_v47
  rw [relu_host_apply, addf_addf_apply]

/-- The classifier. -/
theorem v53_apply (r : Fin 100000) (j : Fin 40) :
    val_main_v53 (F := Ideal) x0 x1 x2 x3 x4 x5 x6 x7 x8 x9 x10 x11 x12 x13 x14 (ix2 r j)
      = dense (fun n => val_main_v49 (F := Ideal) x0 x1 x2 x3 x4 x5 x6 x7 x8 x9 x10 x11 x12 (ix2 r n)) (mat x13) (vec x14) j := by
  unfold val_main_v53 val_main_v52 val_main_v51 val_main_v50
  rw [dot_bias_apply dot_S100000x128_S128x40_S100000x40_1_0_0_1_n_n rfl rfl rfl rfl rfl rfl]

/-- The reference's result is the network's logits, node by node, on the features and the aggregated embeddings. -/
theorem result_eq_logits :
    val_main_v53 (F := Ideal) x0 x1 x2 x3 x4 x5 x6 x7 x8 x9 x10 x11 x12 x13 x14
      = logits x0 (agg x1 x2) x3 x4 x5 x6 x7 x8 x9 x10 x11 x12 x13 x14 := by
  funext i
  obtain ⟨r, j, rfl⟩ : ∃ (r : Fin 100000) (j : Fin 40), i = ix2 r j := ⟨i 0, i 1, eq_ix2 i⟩
  rw [v53_apply]
  simp only [v49_apply, v46_apply, v8_apply, v40_apply]
  rfl

end Cert.GraphMlp.RefSide

end
-- ==== Proof.lean ====
/-
  A two-branch node classifier on a graph, as one fused kernel against its array-level reference.

  Both programs first aggregate a table of node embeddings over the edges: gather the rows of the edges' sources,
  scatter-add them at the edges' destinations, divide by the in-degree clamped below by one.  They then apply the same
  network to every node r:
      hx = dense (relu ∘ dense x_r wx1 bx1) wx2 bx2 ,        ha = dense (relu ∘ dense agg_r wa1 ba1) wa2 ba2 ,
      h  = relu (relu (mix (hx, ha)) + hx + ha) ,            logits_r = dense h wc bc .
  The kernel walks the nodes in 50 blocks of 2000 rows with every weight resident, changes float formats around
  each matrix product (the identity on the extended reals) and multiplies hx and ha by the upper and the lower 128
  rows of the mixing weights; the reference multiplies the concatenation (hx, ha) by all 256 rows.  A sum over the
  256 joined coordinates is the sum over the first 128 plus the sum over the last 128 — addition of extended reals is
  commutative and associative, so the precondition's finiteness is not used — and every other operation is the same
  on both sides.  Each side is read, entry by entry, as the one array `logits` of the launched arguments
  (Proof/Layers.lean the row formulas and each layer at an entry; Proof/KernelRow.lean, Proof/KernelValue.lean and
  Proof/KernelResult.lean the kernel's block, the 50 blocks tiling the result, and the arrays the region finds;
  Proof/Aggregate.lean the aggregation shared by the two programs; Proof/RefRow.lean the reference).
  The three programs run and keep their arguments (the frames); nothing was rewritten between the kernel as compiled
  and its reading over the extended reals.
-/
import proofs.«116607_j86577950753300_1_alg».proof.Defs
import proofs.«116607_j86577950753300_1_alg».proof.Proof.Gen.Kernel
import proofs.«116607_j86577950753300_1_alg».proof.Proof.Gen.Kernel.Skeleton
import proofs.«116607_j86577950753300_1_alg».proof.Proof.Gen.Kernel.Launch
import proofs.«116607_j86577950753300_1_alg».proof.Proof.Gen.Kernel.Points
import proofs.«116607_j86577950753300_1_alg».proof.Proof.Gen.Kernel.Frame
import proofs.«116607_j86577950753300_1_alg».proof.Proof.Gen.KernelIdeal
import proofs.«116607_j86577950753300_1_alg».proof.Proof.Gen.KernelIdeal.Skeleton
import proofs.«116607_j86577950753300_1_alg».proof.Proof.Gen.KernelIdeal.Launch
import proofs.«116607_j86577950753300_1_alg».proof.Proof.Gen.KernelIdeal.Points
import proofs.«116607_j86577950753300_1_alg».proof.Proof.Gen.KernelIdeal.Frame
import proofs.«116607_j86577950753300_1_alg».proof.Proof.Gen.ReferenceIdeal
import proofs.«116607_j86577950753300_1_alg».proof.Proof.Gen.Pre_finite_inputs
import proofs.«116607_j86577950753300_1_alg».proof.Proof.Gen.KernelIdeal.Value
import proofs.«116607_j86577950753300_1_alg».proof.Proof.Gen.ReferenceIdeal.Run
import proofs.«116607_j86577950753300_1_alg».proof.Proof.Gen.ReferenceIdeal.Read
import proofs.«116607_j86577950753300_1_alg».proof.Proof.KernelResult
import proofs.«116607_j86577950753300_1_alg».proof.Proof.RefRow
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's logits of the launched arguments in their result arrays. -/
theorem algebraic : Cert.algebraic_KernelIdeal_ReferenceIdeal := by
  intro m ρ m' ρ' _ hagree
  refine ⟨fun c => Cert.GraphMlp.KernelSide.result m c, ?_, ?_⟩
  · exact (θ_run Cert.KernelIdeal.defs _ _).mono
      (fun _ h c => ⟨(h c).1.trans (Cert.GraphMlp.KernelSide.final_result m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v53_eq, Cert.GraphMlp.RefSide.result_eq_logits,
      h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
